-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S_ : Shape := ⟨0, ![]⟩
abbrev S128x64 : Shape := ⟨2, ![128, 64]⟩
abbrev S64 : Shape := ⟨1, ![64]⟩
abbrev S64x256 : Shape := ⟨2, ![64, 256]⟩
abbrev S256 : Shape := ⟨1, ![256]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  reducesTo_S_S_d : S_.ReducesTo [] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_v32 : IVec S_ 1) (main_v33 : IVec S1x800000 32) : IVec S_ 1 :=
  let main_v34 : IVec S800000 32 := shapeCast S800000 main_v33 shapeCasts_S1x800000_S800000
  let main_c_12 : IVec S_ 32 := constantI S_ 32 0#32
  let main_v35 : IVec S800000 32 := broadcastInDim S800000 ![] bcast_S_S800000 main_c_12
  let main_v36 : IVec S800000 1 := cmpi .sge main_v34 main_v35
  let main_c_13 : IVec S_ 1 := constantI S_ 1 1#1
  let main_v37 : IVec S_ 1 := (fun x v => Host.reduce IntOp.andi x v reducesTo_S800000_S_d0 h_S_) main_v36 main_c_13
  let main_v38 : IVec S_ 1 := andi main_v32 main_v37
  main_v38

def fn_part1 {F : FTy → Type} [FloatOps F] (main_arg1 : IVec S2x800000 32) (main_arg5 : FVec F S64 .f32) (main_arg6 : FVec F S64x256 .f32) (main_arg7 : FVec F S256 .f32) (main_v12 : IVec S_ 1) (main_v15 : IVec S128x64 1) (main_c_5 : IVec S_ 1) : IVec S_ 1 :=
  let main_v16 : IVec S_ 1 := (fun x v => Host.reduce IntOp.andi x v reducesTo_S128x64_S_d0_1 h_S_) main_v15 main_c_5
  let main_v17 : IVec S_ 1 := andi main_v12 main_v16
  let main_v18 : FVec F S64 .f32 := Host.absf main_arg5
  let main_cst_6 : FVec F S_ .f32 := constant S_ .f32 0x7F800000#32
  let main_v19 : FVec F S64 .f32 := broadcastInDim S64 ![] bcast_S_S64 main_cst_6
  let main_v20 : IVec S64 1 := cmpf .olt main_v18 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v17 main_v21
  let main_v23 : FVec F S64x256 .f32 := Host.absf main_arg6
  let main_cst_8 : FVec F S_ .f32 := constant S_ .f32 0x7F800000#32
  let main_v24 : FVec F S64x256 .f32 := broadcastInDim S64x256 ![] bcast_S_S64x256 main_cst_8
  let main_v25 : IVec S64x256 1 := cmpf .olt main_v23 main_v24
  let main_c_9 : IVec S_ 1 := constantI S_ 1 1#1
  let main_v26 : IVec S_ 1 := (fun x v => Host.reduce IntOp.andi x v reducesTo_S64x256_S_d0_1 h_S_) main_v25 main_c_9
  let main_v27 : IVec S_ 1 := andi main_v22 main_v26
  let main_v28 : FVec F S256 .f32 := Host.absf main_arg7
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : IVec S1x800000 32 := (extractStridedSlice S1x800000 ![1, 0] · slices_S2x800000_S1x800000_1_0) main_arg1
  fn_part2 (F := F) main_v32 main_v33

def fn {F : FTy → Type} [FloatOps F] (main_arg0 : FVec F S50000x128 .f32) (main_arg1 : IVec S2x800000 32) (main_arg2 : FVec F S800000x128 .f32) (main_arg3 : FVec F S_ .f32) (main_arg4 : FVec F S128x64 .f32) (main_arg5 : FVec F S64 .f32) (main_arg6 : FVec F S64x256 .f32) (main_arg7 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S128x64 .f32 := Host.absf main_arg4
  let main_cst_4 : FVec F S_ .f32 := constant S_ .f32 0x7F800000#32
  let main_v14 : FVec F S128x64 .f32 := broadcastInDim S128x64 ![] bcast_S_S128x64 main_cst_4
  let main_v15 : IVec S128x64 1 := cmpf .olt main_v13 main_v14
  let main_c_5 : IVec S_ 1 := constantI S_ 1 1#1
  fn_part1 (F := F) main_arg1 main_arg5 main_arg6 main_arg7 main_v12 main_v15 main_c_5
-- ==== Kernel.lean ====
abbrev S50000x128 : Shape := ⟨2, ![50000, 128]⟩
abbrev S2x800000 : Shape := ⟨2, ![2, 800000]⟩
abbrev S800000x128 : Shape := ⟨2, ![800000, 128]⟩
abbrev S_ : Shape := ⟨0, ![]⟩
abbrev S128x64 : Shape := ⟨2, ![128, 64]⟩
abbrev S64 : Shape := ⟨1, ![64]⟩
abbrev S64x256 : Shape := ⟨2, ![64, 256]⟩
abbrev S256 : Shape := ⟨1, ![256]⟩
abbrev S1x800000 : Shape := ⟨2, ![1, 800000]⟩
abbrev S800000 : Shape := ⟨1, ![800000]⟩
abbrev S800000x1 : Shape := ⟨2, ![800000, 1]⟩
abbrev S128x128 : Shape := ⟨2, ![128, 128]⟩
abbrev S128 : Shape := ⟨1, ![128]⟩
abbrev S1x128 : Shape := ⟨2, ![1, 128]⟩
abbrev S128x256 : Shape := ⟨2, ![128, 256]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩

abbrev nBuf : Space → Nat
  | .hbm => 50
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S_, .f32⟩
  | .hbm, ⟨4, _⟩ => ⟨S128x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S50000x128, .f32⟩
  | .hbm, ⟨38, _⟩ => ⟨S_, .i32⟩
  | .hbm, ⟨39, _⟩ => ⟨S_, .f32⟩
  | .hbm, ⟨40, _⟩ => ⟨S128x128, .f32⟩
  | .hbm, ⟨41, _⟩ => ⟨S_, .i32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S_, .i32⟩
  | .hbm, ⟨46, _⟩ => ⟨S_, .f32⟩
  | .hbm, ⟨47, _⟩ => ⟨S128x256, .f32⟩
  | .hbm, ⟨48, _⟩ => ⟨S1x256, .f32⟩
  | .hbm, ⟨49, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x256, .f32⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_call1_v0 : Ref sig .tc := ⟨.hbm, 39, rfl⟩
abbrev main_v23 : Ref sig .tc := ⟨.hbm, 40, rfl⟩
abbrev main_c_4 : Ref sig .tc := ⟨.hbm, 41, rfl⟩
abbrev main_call2_v0 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_call3_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  pads_S128x64_S128x128_000_0640 : S128x64.Pads (![0, 0] : Fin 2 → Nat) ![0, 64] ![0, 0] S128x128
  h_S_ : 0 < S_.numel
  pads_S64_S128_0640 : S64.Pads (![0] : Fin 1 → Nat) ![64] ![0] S128
  shapeCasts_S128_S1x128 : S128.ShapeCasts S1x128
  pads_S64x256_S128x256_0640_000 : S64x256.Pads (![0, 0] : Fin 2 → Nat) ![64, 0] ![0, 0] S128x256
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S_ : Shape := ⟨0, ![]⟩
abbrev S128x64 : Shape := ⟨2, ![128, 64]⟩
abbrev S64 : Shape := ⟨1, ![64]⟩
abbrev S64x256 : Shape := ⟨2, ![64, 256]⟩
abbrev S256 : Shape := ⟨1, ![256]⟩
abbrev S1x800000 : Shape := ⟨2, ![1, 800000]⟩
abbrev S800000 : Shape := ⟨1, ![800000]⟩
abbrev S800000x1 : Shape := ⟨2, ![800000, 1]⟩
abbrev S50000x64 : Shape := ⟨2, ![50000, 64]⟩
abbrev S1x64 : Shape := ⟨2, ![1, 64]⟩
abbrev S50000x256 : Shape := ⟨2, ![50000, 256]⟩
abbrev S1x256 : Shape := ⟨2, ![1, 256]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S_, .f32⟩
  | .hbm, ⟨4, _⟩ => ⟨S128x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | .hbm, ⟨38, _⟩ => ⟨S_, .f32⟩
  | .hbm, ⟨39, _⟩ => ⟨S50000x64, .f32⟩
  | .hbm, ⟨40, _⟩ => ⟨S50000x64, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call2_cst : Ref sig .tc := ⟨.hbm, 45, rfl⟩
abbrev main_call2_v0 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x256_S50000x256_1_0_0_1_n_n_wf : DotDims.WF S50000x64 S64x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf

class Facts : Prop extends Facts₀ where

variable [Facts]
-- ==== Proof.Perceptron.lean ====
/-
  A two-layer perceptron with rectifiers, written on coordinate functions, and what zero-padding its hidden layer does.

  For one node with feature row `h : Fin D → EReal`, the hidden unit `k` is `max (∑ d, h d · W₁ d k + b₁ k) 0` and one
  output entry is `max (∑ k, hidden k · w₂ k + b₂) 0`, where `w₂` is the output's column of the second weight matrix.
  Everything is over the extended reals.  Padding the hidden layer from 64 to 128 units with a second-layer column
  that is zero on the new units changes nothing: each new summand is `hidden k · 0 = 0`, which holds for every
  extended real, so nothing is asked of the new units' own values and no finiteness is used.
-/
import Mathlib.Data.EReal.Operations
import Mathlib.Algebra.BigOperators.Fin

noncomputable section

open scoped BigOperators

namespace Cert.Perceptron

/-- Hidden unit `k` of a node whose feature row is `h`. -/
def hidden {D H : Nat} (h : Fin D → EReal) (W1 : Fin D → Fin H → EReal) (b1 : Fin H → EReal) (k : Fin H) : EReal :=
  max (∑ d : Fin D, h d * W1 d k + b1 k) 0

/-- One output entry: the rectified affine image of the hidden layer under the output's weight column `w2`. -/
def out {D H : Nat} (h : Fin D → EReal) (W1 : Fin D → Fin H → EReal) (b1 : Fin H → EReal) (w2 : Fin H → EReal)
    (b2 : EReal) : EReal :=
  max (∑ k : Fin H, hidden h W1 b1 k * w2 k + b2) 0

/-- A sum over 128 terms whose upper 64 vanish is the sum of its lower 64. -/
theorem sum_lower_half {M : Type} [AddCommMonoid M] (f : Fin 128 → M) (g : Fin 64 → M)
    (hlo : ∀ k : Fin 64, f ⟨k.val, by omega⟩ = g k) (hhi : ∀ k : Fin 128, 64 ≤ k.val → f k = 0) :
    ∑ k : Fin 128, f k = ∑ k : Fin 64, g k := by
  have e : ∑ k : Fin (64 + 64), f k = ∑ i : Fin 64, f (Fin.castAdd 64 i) + ∑ i : Fin 64, f (Fin.natAdd 64 i) :=
    Fin.sum_univ_add (a := 64) (b := 64) f
  have hz : ∑ i : Fin 64, f (Fin.natAdd 64 i) = 0 :=
    Finset.sum_eq_zero fun i _ => hhi _ (by show 64 ≤ 64 + i.val; omega)
  rw [hz, add_zero] at e
  exact e.trans (Finset.sum_congr rfl fun k _ => hlo k)

/-- THE PADDING LAW.  A perceptron with 128 hidden units whose first 64 are those of a 64-unit perceptron (same weight
    columns, same biases) and whose second-layer column is zero on the other 64 has the 64-unit perceptron's output.
    Nothing is assumed of the first layer on the added units. -/
theorem out_padded {D : Nat} (h : Fin D → EReal) (W1 : Fin D → Fin 64 → EReal) (b1 : Fin 64 → EReal)
    (w2 : Fin 64 → EReal) (b2 : EReal) (W1p : Fin D → Fin 128 → EReal) (b1p : Fin 128 → EReal) (w2p : Fin 128 → EReal)
    (hW1 : ∀ (d : Fin D) (k : Fin 64), W1p d ⟨k.val, by omega⟩ = W1 d k)
    (hb1 : ∀ k : Fin 64, b1p ⟨k.val, by omega⟩ = b1 k)
    (hw2 : ∀ k : Fin 64, w2p ⟨k.val, by omega⟩ = w2 k)
    (hw2z : ∀ k : Fin 128, 64 ≤ k.val → w2p k = 0) :
    out h W1p b1p w2p b2 = out h W1 b1 w2 b2 := by
  unfold out
  refine congrArg (fun s => max (s + b2) 0) ?_
  refine sum_lower_half _ _ (fun k => ?_) (fun k hk => ?_)
  · show hidden h W1p b1p ⟨k.val, _⟩ * w2p ⟨k.val, _⟩ = hidden h W1 b1 k * w2 k
    rw [hw2 k]
    refine congrArg (· * w2 k) ?_
    unfold hidden
    rw [hb1 k]
    exact congrArg (fun s => max (s + b1 k) 0) (Finset.sum_congr rfl fun d _ => by rw [hW1 d k])
  · show hidden h W1p b1p k * w2p k = 0
    rw [hw2z k hk, mul_zero]

end Cert.Perceptron

end
-- ==== Proof.BodyAtIndex.lean ====
/-
  One entry of what the kernel body stores, over the extended reals.

  The body loads a 5000-row block of node features, the padded weight matrices and the two bias rows, and stores
  `max (max (h · W₁ + b₁) 0 · W₂ + b₂) 0`.  At the ideal instance a change of float format is the identity and a matrix
  product accumulated into a zero splat is the plain sum of products, so entry `(p, q)` of the stored block is the
  perceptron's output for feature row `p` and output column `q`, with 128 hidden units.
-/
import proofs.«421604_j42296837931757_3_alg».proof.Proof.Gen.KernelIdeal.Skeleton
import proofs.«421604_j42296837931757_3_alg».proof.Proof.Perceptron
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The first product: [5000,128] · [128,128] -/

theorem lhs1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, k)` of the first product into the zero splat: the sum over the 128 features. -/
theorem product1_at (a : FVec Ideal S5000x128 .bf16) (w : FVec Ideal S128x128 .bf16) (p : Fin 5000) (k : Fin 128) :
    matmul dot_S5000x128_S128x128_S5000x128_1_0_0_1_n_n none a w (constant S5000x128 .f32 0x00000000#32) (ix2 p k)
      = ∑ d : Fin 128, a (ix2 p d) * w (ix2 d k) := by
  simp only [matmul]
  rw [Ideal.matmul_constant_zero_apply, ← Equiv.sum_comp (contrEquiv1 dot_S5000x128_S128x128_S5000x128_1_0_0_1_n_n 128 rfl rfl).symm]
  refine Finset.sum_congr rfl fun d _ => ?_
  have hk := contrEquiv1_symm_val dot_S5000x128_S128x128_S5000x128_1_0_0_1_n_n 128 rfl rfl d
  have el : dot_S5000x128_S128x128_S5000x128_1_0_0_1_n_n.lhsIdx (ix2 p k) ((contrEquiv1 dot_S5000x128_S128x128_S5000x128_1_0_0_1_n_n 128 rfl rfl).symm d) = ix2 p d := funext fun a => Fin.ext (by
    match a with
    | ⟨0, _⟩ => exact lhs1_0 _ _
    | ⟨1, _⟩ => exact (lhs1_1 _ _).trans hk)
  have er : dot_S5000x128_S128x128_S5000x128_1_0_0_1_n_n.rhsIdx (ix2 p k) ((contrEquiv1 dot_S5000x128_S128x128_S5000x128_1_0_0_1_n_n 128 rfl rfl).symm d) = ix2 d k := funext fun a => Fin.ext (by
    match a with
    | ⟨0, _⟩ => exact (rhs1_0 _ _).trans hk
    | ⟨1, _⟩ => exact rhs1_1 _ _)
  rw [el, er]

/-! ## The second product: [5000,128] · [128,256] -/

theorem lhs2_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs2_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs2_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs2_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry `(p, q)` of the second product into the zero splat: the sum over the 128 hidden units. -/
theorem product2_at (a : FVec Ideal S5000x128 .bf16) (w : FVec Ideal S128x256 .bf16) (p : Fin 5000) (q : Fin 256) :
    matmul dot_S5000x128_S128x256_S5000x256_1_0_0_1_n_n none a w (constant S5000x256 .f32 0x00000000#32) (ix2 p q)
      = ∑ k : Fin 128, a (ix2 p k) * w (ix2 k q) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ## A bias row laid down the rows of a block -/

/-- A one-row block broadcast down 5000 rows reads, at `(p, k)`, the row at `(0, k)`. -/
theorem rowDown128_at (r : FVec Ideal S1x128 .f32) (p : Fin 5000) (k : Fin 128) :
    broadcastTo S5000x128 r broadcasts_S1x128_S5000x128 (ix2 p k) = r (ix2 (0 : Fin 1) k) :=
  broadcastTo_apply r broadcasts_S1x128_S5000x128 (ix2 p k) (ix2 (0 : Fin 1) k) (fun a => by
    match a with
    | ⟨0, _⟩ => show (0 : Nat) = if (1 : Nat) = 1 then 0 else _; rw [if_pos rfl]
    | ⟨1, _⟩ => show k.val = if (128 : Nat) = 1 then 0 else k.val; rw [if_neg (by decide)])

theorem rowDown256_at (r : FVec Ideal S1x256 .f32) (p : Fin 5000) (q : Fin 256) :
    broadcastTo S5000x256 r broadcasts_S1x256_S5000x256 (ix2 p q) = r (ix2 (0 : Fin 1) q) :=
  broadcastTo_apply r broadcasts_S1x256_S5000x256 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else q.val; rw [if_neg (by decide)])

/-- The rectifier's zero. -/
theorem zero_word : (Scalar.ofBits .f32 0x00000000#32 : Ideal .f32) = 0 := Ideal.ofBits_zero_f32

/-! ## The two layers, then the payload -/

/-- The first layer at `(p, k)`: hidden unit `k` of feature row `p`. -/
theorem layer1_at (a : FVec Ideal S5000x128 .bf16) (w : FVec Ideal S128x128 .bf16) (r : FVec Ideal S1x128 .f32)
    (p : Fin 5000) (k : Fin 128) :
    maximumf (addf (matmul dot_S5000x128_S128x128_S5000x128_1_0_0_1_n_n none a w (constant S5000x128 .f32 0x00000000#32))
        (broadcastTo S5000x128 r broadcasts_S1x128_S5000x128)) (broadcast S5000x128 (Scalar.ofBits .f32 0x00000000#32 : Ideal .f32)) (ix2 p k)
      = Perceptron.hidden (fun d : Fin 128 => a (ix2 p d)) (fun (d k : Fin 128) => w (ix2 d k)) (fun k : Fin 128 => r (ix2 (0 : Fin 1) k)) k := by
  show max (matmul dot_S5000x128_S128x128_S5000x128_1_0_0_1_n_n none a w (constant S5000x128 .f32 0x00000000#32) (ix2 p k)
      + broadcastTo S5000x128 r broadcasts_S1x128_S5000x128 (ix2 p k)) (Scalar.ofBits .f32 0x00000000#32 : Ideal .f32) = _
  rw [product1_at, rowDown128_at, zero_word]
  rfl

/-- The second layer at `(p, q)`. -/
theorem layer2_at (a : FVec Ideal S5000x128 .bf16) (w : FVec Ideal S128x256 .bf16) (r : FVec Ideal S1x256 .f32)
    (p : Fin 5000) (q : Fin 256) :
    maximumf (addf (matmul dot_S5000x128_S128x256_S5000x256_1_0_0_1_n_n none a w (constant S5000x256 .f32 0x00000000#32))
        (broadcastTo S5000x256 r broadcasts_S1x256_S5000x256)) (broadcast S5000x256 (Scalar.ofBits .f32 0x00000000#32 : Ideal .f32)) (ix2 p q)
      = max (∑ k : Fin 128, a (ix2 p k) * w (ix2 k q) + r (ix2 (0 : Fin 1) q)) 0 := by
  show max (matmul dot_S5000x128_S128x256_S5000x256_1_0_0_1_n_n none a w (constant S5000x256 .f32 0x00000000#32) (ix2 p q)
      + broadcastTo S5000x256 r broadcasts_S1x256_S5000x256 (ix2 p q)) (Scalar.ofBits .f32 0x00000000#32 : Ideal .f32) = _
  rw [product2_at, rowDown256_at, zero_word]

/-- ENTRY `(p, q)` OF THE STORED BLOCK: the 128-unit perceptron of feature row `p` of the loaded block, at output column `q`. -/
theorem payload_at (v0 : FVec Ideal S5000x128 .f32) (v3 : FVec Ideal S128x128 .f32) (v7 : FVec Ideal S1x128 .f32)
    (v14 : FVec Ideal S128x256 .f32) (v18 : FVec Ideal S1x256 .f32) (p : Fin 5000) (q : Fin 256) :
    k0_pay1 (F := Ideal) v0 v3 v7 v14 v18 (ix2 p q)
      = Perceptron.out (fun d : Fin 128 => v0 (ix2 p d)) (fun (d k : Fin 128) => v3 (ix2 d k))
          (fun k : Fin 128 => v7 (ix2 (0 : Fin 1) k)) (fun k : Fin 128 => v14 (ix2 k q)) (v18 (ix2 (0 : Fin 1) q)) := by
  unfold k0_pay1
  simp only [shapeCast_self]
  refine (layer2_at _ _ _ p q).trans ?_
  unfold Perceptron.out
  refine congrArg (fun s => max (s + v18 (ix2 (0 : Fin 1) q)) 0) (Finset.sum_congr rfl fun k _ => ?_)
  refine congrArg (· * v14 (ix2 k q)) ?_
  exact layer1_at _ _ _ p k

end Cert.KernelIdeal.Body

end
-- ==== Proof.KernelArray.lean ====
/-
  The kernel's output array after the run, as one function of the five arrays its region reads.

  Grid point `t` works on rows `5000 t … 5000 t + 4999`: it reads that block of the node features and the whole of the
  four small arrays, and writes the same rows of the output.  So the ten blocks tile the output, entry `(n, j)` is
  written by point `n / 5000`, and the whole array is the 128-unit perceptron applied row by row.
-/
import proofs.«421604_j42296837931757_3_alg».proof.Proof.Gen.KernelIdeal.Value
import proofs.«421604_j42296837931757_3_alg».proof.Proof.BodyAtIndex

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

/-- The perceptron applied to every row of a node-feature array: entry `(n, j)` from row `n` of `A0`, the weight arrays
    `A1`, `A3` and the one-row bias arrays `A2`, `A4`. -/
def rows (A0 : FVec Ideal S50000x128 .f32) (A1 : FVec Ideal S128x128 .f32) (A2 : FVec Ideal S1x128 .f32)
    (A3 : FVec Ideal S128x256 .f32) (A4 : FVec Ideal S1x256 .f32) : FVec Ideal S50000x256 .f32 :=
  fun i => Perceptron.out (fun d : Fin 128 => A0 (ix2 (⟨(i 0).val, (i 0).isLt⟩ : Fin 50000) d)) (fun (d k : Fin 128) => A1 (ix2 d k))
    (fun k : Fin 128 => A2 (ix2 (0 : Fin 1) k)) (fun k : Fin 128 => A3 (ix2 k (⟨(i 1).val, (i 1).isLt⟩ : Fin 256)))
    (A4 (ix2 (0 : Fin 1) (⟨(i 1).val, (i 1).isLt⟩ : Fin 256)))

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the ten grid points: the feature window and the output window sit at block row `t`,
    block column 0; the four small windows stay at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `5000 t + p` of a 50000-row array, for a grid point `t` and a row `p` of its block. -/
abbrev rowOf (t : Fin cfg0.N) (p : Fin 5000) : Fin 50000 :=
  ⟨t.val * 5000 + p.val, by have ht := t.isLt; have hN : cfg0.N = 10 := N_0; have hp := p.isLt; omega⟩

/-- Block `t` of a node-feature array: its entry `(p, d)` is the array's entry `(5000 t + p, d)`. -/
theorem read0 (t : Fin cfg0.N) (A : FVec Ideal S50000x128 .f32) (p : Fin 5000) (d : Fin 128) :
    ((cfg0.win 0).blk t).view.read (Elt Ideal) A (ix2 p d) = A (ix2 (rowOf t p) d) := by
  obtain ⟨e00, e01, -⟩ := index_maps t
  show A (((cfg0.win 0).blk t).view.emb (ix2 p d)) = _
  refine congrArg A (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * d.val = d.val; omega

/-- The four small windows hold their whole array at every point. -/
theorem read1 (t : Fin cfg0.N) (A : FVec Ideal S128x128 .f32) (d k : Fin 128) :
    ((cfg0.win 1).blk t).view.read (Elt Ideal) A (ix2 d k) = A (ix2 d k) := by
  obtain ⟨-, -, e10, e11, -⟩ := index_maps t
  show A (((cfg0.win 1).blk t).view.emb (ix2 d k)) = _
  refine congrArg A (funext fun a => Fin.ext ?_)
  match a with
  | ⟨0, _⟩ => show win0_1.index t (0 : Fin 2) * 128 + 1 * d.val = d.val; omega
  | ⟨1, _⟩ => show win0_1.index t (1 : Fin 2) * 128 + 1 * k.val = k.val; omega

theorem read2 (t : Fin cfg0.N) (A : FVec Ideal S1x128 .f32) (k : Fin 128) :
    ((cfg0.win 2).blk t).view.read (Elt Ideal) A (ix2 (0 : Fin 1) k) = A (ix2 (0 : Fin 1) k) := by
  obtain ⟨-, -, -, -, e20, e21, -⟩ := index_maps t
  show A (((cfg0.win 2).blk t).view.emb (ix2 (0 : Fin 1) k)) = _
  refine congrArg A (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

theorem read3 (t : Fin cfg0.N) (A : FVec Ideal S128x256 .f32) (k : Fin 128) (q : Fin 256) :
    ((cfg0.win 3).blk t).view.read (Elt Ideal) A (ix2 k q) = A (ix2 k q) := by
  obtain ⟨-, -, -, -, -, -, e30, e31, -⟩ := index_maps t
  show A (((cfg0.win 3).blk t).view.emb (ix2 k q)) = _
  refine congrArg A (funext fun a => Fin.ext ?_)
  match a with
  | ⟨0, _⟩ => show win0_3.index t (0 : Fin 2) * 128 + 1 * k.val = k.val; omega
  | ⟨1, _⟩ => show win0_3.index t (1 : Fin 2) * 256 + 1 * q.val = q.val; omega

theorem read4 (t : Fin cfg0.N) (A : FVec Ideal S1x256 .f32) (q : Fin 256) :
    ((cfg0.win 4).blk t).view.read (Elt Ideal) A (ix2 (0 : Fin 1) q) = A (ix2 (0 : Fin 1) q) := by
  obtain ⟨-, -, -, -, -, -, -, -, e40, e41, -⟩ := index_maps t
  show A (((cfg0.win 4).blk t).view.emb (ix2 (0 : Fin 1) q)) = _
  refine congrArg A (funext fun a => Fin.ext ?_)
  match a with
  | ⟨0, _⟩ => show win0_4.index t (0 : Fin 2) * 1 + 1 * 0 = 0; omega
  | ⟨1, _⟩ => show win0_4.index t (1 : Fin 2) * 256 + 1 * q.val = q.val; omega

/-- Where entry `(p, q)` of the output's block `t` sits in the output array: at `(5000 t + p, q)`. -/
theorem emb5 (t : Fin cfg0.N) (p : Fin 5000) (q : Fin 256) :
    ((cfg0.win 5).blk t).view.emb (ix2 p q) = ix2 (rowOf t p) q := by
  obtain ⟨-, -, -, -, -, -, -, -, -, -, e50, e51⟩ := index_maps t
  refine funext fun a => Fin.ext ?_
  match a with
  | ⟨0, _⟩ => show win0_5.index t (0 : Fin 2) * 5000 + 1 * p.val = t.val * 5000 + p.val; omega
  | ⟨1, _⟩ => show win0_5.index t (1 : Fin 2) * 256 + 1 * q.val = q.val; omega

/-- For ANY five arrays: the body's result on their blocks at point `t` is block `t` of the row-by-row perceptron. -/
theorem block_eq (t : Fin cfg0.N) (A0 : FVec Ideal S50000x128 .f32) (A1 : FVec Ideal S128x128 .f32) (A2 : FVec Ideal S1x128 .f32)
    (A3 : FVec Ideal S128x256 .f32) (A4 : FVec Ideal S1x256 .f32) :
    (cfg0.win 5).cut (grid0.coords t) (k0_pay1 (F := Ideal) (((cfg0.win 0).blk t).view.read (Elt Ideal) A0)
        (((cfg0.win 1).blk t).view.read (Elt Ideal) A1) (((cfg0.win 2).blk t).view.read (Elt Ideal) A2)
        (((cfg0.win 3).blk t).view.read (Elt Ideal) A3) (((cfg0.win 4).blk t).view.read (Elt Ideal) A4))
      = ((cfg0.win 5).blk t).view.read (Elt Ideal) (rows A0 A1 A2 A3 A4) := by
  funext j
  have hj0 : (j 0).val < 5000 := (j 0).isLt
  have hj1 : (j 1).val < 256 := (j 1).isLt
  have ej : (j : S5000x256.Idx) = ix2 (⟨(j 0).val, hj0⟩ : Fin 5000) (⟨(j 1).val, hj1⟩ : Fin 256) :=
    funext fun a => by match a with | ⟨0, _⟩ => rfl | ⟨1, _⟩ => rfl
  show k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) j
    = rows A0 A1 A2 A3 A4 (((cfg0.win 5).blk t).view.emb j)
  rw [ej, emb5 t ⟨(j 0).val, hj0⟩ ⟨(j 1).val, hj1⟩]
  refine (Body.payload_at (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) ⟨(j 0).val, hj0⟩ ⟨(j 1).val, hj1⟩).trans ?_
  have h0 : (fun d : Fin 128 => ((cfg0.win 0).blk t).view.read (Elt Ideal) A0 (ix2 (⟨(j 0).val, hj0⟩ : Fin 5000) d))
      = fun d : Fin 128 => A0 (ix2 (rowOf t ⟨(j 0).val, hj0⟩) d) := funext fun d => read0 t A0 _ d
  have h1 : (fun (d k : Fin 128) => ((cfg0.win 1).blk t).view.read (Elt Ideal) A1 (ix2 d k)) = fun (d k : Fin 128) => A1 (ix2 d k) :=
    funext fun d => funext fun k => read1 t A1 d k
  have h2 : (fun k : Fin 128 => ((cfg0.win 2).blk t).view.read (Elt Ideal) A2 (ix2 (0 : Fin 1) k)) = fun k : Fin 128 => A2 (ix2 (0 : Fin 1) k) :=
    funext fun k => read2 t A2 k
  have h3 : (fun k : Fin 128 => ((cfg0.win 3).blk t).view.read (Elt Ideal) A3 (ix2 k (⟨(j 1).val, hj1⟩ : Fin 256)))
      = fun k : Fin 128 => A3 (ix2 k (⟨(j 1).val, hj1⟩ : Fin 256)) := funext fun k => read3 t A3 k _
  have h4 : ((cfg0.win 4).blk t).view.read (Elt Ideal) A4 (ix2 (0 : Fin 1) (⟨(j 1).val, hj1⟩ : Fin 256))
      = A4 (ix2 (0 : Fin 1) (⟨(j 1).val, hj1⟩ : Fin 256)) := read4 t A4 _
  exact congr (congr (congr (congr (congrArg Perceptron.out h0) h1) h2) h3) h4

/-- WHAT POINT `t` WRITES BACK is block `t` of the row-by-row perceptron of the arrays the region finds. -/
theorem flushed_eq (c : Dev nD) (t : Fin cfg0.N) :
    (dats m 0 c).flushed 5 t = ((cfg0.win 5).blk t).view.read (Elt Ideal)
      (rows (V m c main_v22) (V m c main_v23) (V m c main_v25) (V m c main_v26) (V m c main_v27)) := by
  rw [Value.flushed5]
  unfold out0_5
  rw [View.canon_unit_zero zero_offsets]
  simp only [View.ld_unit_zero (S := S5000x128) zero_offsets, View.ld_unit_zero (S := S128x128) zero_offsets,
    View.ld_unit_zero (S := S1x128) zero_offsets, View.ld_unit_zero (S := S128x256) zero_offsets,
    View.ld_unit_zero (S := S1x256) zero_offsets]
  exact block_eq t (V m c main_v22) (V m c main_v23) (V m c main_v25) (V m c main_v26) (V m c main_v27)

/-- An index of the output array is in point `t`'s block iff each coordinate is in the block's range on its axis. -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v28).slice (win0_5.rect t)).set ↔ _
  rw [View.set_slice_whole, Rect.mem_set_unit]
  exact Iff.rfl

/-- The ten blocks cover the output: row `n` lies in the block of point `n / 5000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨_, _, _, _, _, _, _, _, _, _, e50, e51⟩ := index_maps t
  have et : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- THE OUTPUT ARRAY after the run: the perceptron applied to every row of the node features the region found. -/
theorem final (c : Dev nD) : (dats m 0 c).arrAt 5 cfg0.N
    = rows (V m c main_v22) (V m c main_v23) (V m c main_v25) (V m c main_v26) (V m c main_v27) :=
  (dats m 0 c).arrAt_eq_of_cover 5 _ (fun t _ => flushed_eq m c t) cover

end Cert.KernelIdeal.Whole

end
-- ==== Proof.KernelOperands.lean ====
/-
  What the kernel's one region finds in its five input arrays: each as a term of the program's arguments.

  The region reads the node features `h` (the scatter-sum of the edge messages into the initial array `(1 + eps) · x`),
  the first weight matrix padded with 64 zero columns, the first bias padded with 64 zeros and laid out as one row,
  the second weight matrix padded with 64 zero rows, and the second bias laid out as one row.  The terms are named
  here so that later modules can speak of them without opening them.
-/
import proofs.«421604_j42296837931757_3_alg».proof.Proof.Gen.KernelIdeal.Frame
import Idealize.ShloMosaic.Lib.StableHlo.Run

noncomputable section

namespace Cert.KernelIdeal.Operands

open Cert.KernelIdeal Cert.KernelIdeal.Gen Idealize.ShloMosaic Idealize.ShloMosaic.TcCoe Idealize.SL.Sem Idealize.ShloMosaic.StableHlo

variable {F : FTy → Type} [FloatOps F]

/-- Row 0 of the edge list: each edge's source node. -/
def srcRow (e : IVec S2x800000 32) : IVec S800000 32 :=
  shapeCast S800000 (extractStridedSlice S1x800000 ![0, 0] e slices_S2x800000_S1x800000_0_0) shapeCasts_S1x800000_S800000

/-- Row 1 of the edge list: each edge's target node. -/
def dstRow (e : IVec S2x800000 32) : IVec S800000 32 :=
  shapeCast S800000 (extractStridedSlice S1x800000 ![1, 0] e slices_S2x800000_S1x800000_1_0) shapeCasts_S1x800000_S800000

/-- The wrap of a negative node index `v` to `v + 50000`, as array indexing does it. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of node indices as a one-column array of start indices. -/
def column (v : IVec S800000 32) : IVec S800000x1 32 := broadcastInDim S800000x1 ![0] bcast_S800000_S800000x1_0 v

/-- The edge messages `max (x[src] + edge_attr) 0`. -/
def messages (x : FVec F S50000x128 .f32) (e : IVec S2x800000 32) (a : FVec F S800000x128 .f32) : FVec F S800000x128 .f32 :=
  maximumf (addf (Host.gather gather_S50000x128_S800000x1_S800000x128_1_0_n_n_0_1_1128 x (column (wrap (srcRow e)))) a)
    (broadcastInDim S800000x128 ![] bcast_S_S800000x128 (constant S_ .f32 0x00000000#32))

/-- The self term `(1 + eps) · x`. -/
def selfTerm (x : FVec F S50000x128 .f32) (eps : FVec F S_ .f32) : FVec F S50000x128 .f32 :=
  mulf (broadcastInDim S50000x128 ![] bcast_S_S50000x128 (addf (constant S_ .f32 0x3F800000#32) eps)) x

/-- The node features the region reads: the messages scatter-summed at the wrapped targets INTO the self term. -/
def nodeFeatures (x : FVec F S50000x128 .f32) (e : IVec S2x800000 32) (a : FVec F S800000x128 .f32) (eps : FVec F S_ .f32) :
    FVec F S50000x128 .f32 :=
  Host.scatterAdd scatter_S50000x128_S800000x1_S800000x128_1_0_0_1 (selfTerm x eps) (column (wrap (dstRow e))) (messages x e a)

/-- The padding value: the integer zero converted. -/
def padValue : FVec F S_ .f32 := sitofp .f32 (constantI S_ 32 0#32)

variable (m : (ℓ : Loc nD τ sig) → Buf (Elt F) ℓ)

/-- The simp set that opens the region-entry contents into one list of host operations. -/
macro "open_entry" : tactic => `(tactic| (
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]))

set_option maxRecDepth 8192 in
set_option maxHeartbeats 2000000 in
theorem features_eq (c : Dev nD) :
    (V m c main_v22 : S50000x128.Idx → Elt F .f32) =
      nodeFeatures (m ((c : Thread nD τ).loc main_arg0)) (m ((c : Thread nD τ).loc main_arg1))
        (m ((c : Thread nD τ).loc main_arg2)) (m ((c : Thread nD τ).loc main_arg3)) := by
  open_entry
  after_results_simp <;> rfl

theorem weights1_eq (c : Dev nD) :
    (V m c main_v23 : S128x128.Idx → Elt F .f32) =
      pad S128x128 ![0, 0] ![0, 64] ![0, 0] (m ((c : Thread nD τ).loc main_arg4)) (padValue (F := F)) pads_S128x64_S128x128_000_0640 h_S_ := by
  open_entry
  after_results
  rfl

theorem bias1_eq (c : Dev nD) :
    (V m c main_v25 : S1x128.Idx → Elt F .f32) =
      shapeCast S1x128 (pad S128 ![0] ![64] ![0] (m ((c : Thread nD τ).loc main_arg5)) (padValue (F := F)) pads_S64_S128_0640 h_S_) shapeCasts_S128_S1x128 := by
  open_entry
  after_results
  rfl

theorem weights2_eq (c : Dev nD) :
    (V m c main_v26 : S128x256.Idx → Elt F .f32) =
      pad S128x256 ![0, 0] ![64, 0] ![0, 0] (m ((c : Thread nD τ).loc main_arg6)) (padValue (F := F)) pads_S64x256_S128x256_0640_000 h_S_ := by
  open_entry
  after_results
  rfl

theorem bias2_eq (c : Dev nD) :
    (V m c main_v27 : S1x256.Idx → Elt F .f32) =
      shapeCast S1x256 (m ((c : Thread nD τ).loc main_arg7)) shapeCasts_S256_S1x256 := by
  open_entry
  after_results
  rfl

end Cert.KernelIdeal.Operands

end
-- ==== Proof.PaddedOperands.lean ====
/-
  The kernel's padded weight and bias arrays, read at an index, at the ideal instance.

  The first weight matrix is padded from 64 to 128 columns, the first bias from 64 to 128 entries (then laid out as
  one row), the second weight matrix from 64 to 128 rows; the padding value is the integer zero converted, which is
  the real 0.  Inside the original extent a padded array reads the original; the added rows of the second weight
  matrix read 0.  The second bias is only laid out as one row.
-/
import proofs.«421604_j42296837931757_3_alg».proof.Proof.KernelOperands
import Idealize.ShloMosaic.Lib.KernelVsHost
import Idealize.ShloMosaic.Lib.Pipeline.Value
import Idealize.ShloMosaic.Lib.ValueIdx

noncomputable section

namespace Cert.KernelIdeal.Operands

open Cert.KernelIdeal Cert.KernelIdeal.Gen Idealize.ShloMosaic Idealize.ShloMosaic.ValueIdx

/-- The padding value is the real zero. -/
theorem padValue_zero : padValue (F := Ideal) (Shape.Idx.first h_S_) = 0 := by
  show (Scalar.sitofp .f32 0#32 : Ideal .f32) = 0
  exact sitofp_zero

/-- Column `k < 64` of the padded first weight matrix is column `k` of the matrix. -/
theorem weights1_at (W : FVec Ideal S128x64 .f32) (d : Fin 128) (k : Fin 64) :
    pad S128x128 ![0, 0] ![0, 64] ![0, 0] W (padValue (F := Ideal)) pads_S128x64_S128x128_000_0640 h_S_
        (ix2 d (⟨k.val, by omega⟩ : Fin 128)) = W (ix2 d k) :=
  pad_apply_of_inside ![0, 0] ![0, 64] ![0, 0] W _ pads_S128x64_S128x128_000_0640 h_S_ (ix2 d (⟨k.val, by omega⟩ : Fin 128)) (ix2 d k) (fun a => by
    match a with
    | ⟨0, _⟩ => show d.val = 0 + d.val * (0 + 1); omega
    | ⟨1, _⟩ => show k.val = 0 + k.val * (0 + 1); omega)

/-- Entry `k < 64` of the padded first bias, laid out as one row, is entry `k` of the bias. -/
theorem bias1_at (b : FVec Ideal S64 .f32) (k : Fin 64) :
    shapeCast S1x128 (pad S128 ![0] ![64] ![0] b (padValue (F := Ideal)) pads_S64_S128_0640 h_S_) shapeCasts_S128_S1x128
        (ix2 (0 : Fin 1) (⟨k.val, by omega⟩ : Fin 128)) = b (ix1 k) := by
  refine (shapeCast_apply _ shapeCasts_S128_S1x128 (ix2 (0 : Fin 1) (⟨k.val, by omega⟩ : Fin 128)) (ix1 (⟨k.val, by omega⟩ : Fin 128)) (by
    rw [Shape.rowMajor_val_one, Shape.rowMajor_val_two]; show k.val = 0 * 128 + k.val; omega)).trans ?_
  exact pad_apply_of_inside ![0] ![64] ![0] b _ pads_S64_S128_0640 h_S_ (ix1 (⟨k.val, by omega⟩ : Fin 128)) (ix1 k) (fun a => by
    match a with
    | ⟨0, _⟩ => show k.val = 0 + k.val * (0 + 1); omega)

/-- Row `k < 64` of the padded second weight matrix is row `k` of the matrix. -/
theorem weights2_at (W : FVec Ideal S64x256 .f32) (k : Fin 64) (q : Fin 256) :
    pad S128x256 ![0, 0] ![64, 0] ![0, 0] W (padValue (F := Ideal)) pads_S64x256_S128x256_0640_000 h_S_
        (ix2 (⟨k.val, by omega⟩ : Fin 128) q) = W (ix2 k q) :=
  pad_apply_of_inside ![0, 0] ![64, 0] ![0, 0] W _ pads_S64x256_S128x256_0640_000 h_S_ (ix2 (⟨k.val, by omega⟩ : Fin 128) q) (ix2 k q) (fun a => by
    match a with
    | ⟨0, _⟩ => show k.val = 0 + k.val * (0 + 1); omega
    | ⟨1, _⟩ => show q.val = 0 + q.val * (0 + 1); omega)

/-- The 64 added rows of the padded second weight matrix are zero. -/
theorem weights2_zero (W : FVec Ideal S64x256 .f32) (k : Fin 128) (hk : 64 ≤ k.val) (q : Fin 256) :
    pad S128x256 ![0, 0] ![64, 0] ![0, 0] W (padValue (F := Ideal)) pads_S64x256_S128x256_0640_000 h_S_ (ix2 k q) = 0 := by
  refine (pad_apply_of_not_inside ![0, 0] ![64, 0] ![0, 0] W _ pads_S64x256_S128x256_0640_000 h_S_ (ix2 k q) (0 : Fin 2) ?_).trans padValue_zero
  show ¬(0 ≤ k.val ∧ (k.val - 0) % (0 + 1) = 0 ∧ (k.val - 0) / (0 + 1) < 64)
  omega

/-- Entry `q` of the second bias laid out as one row is entry `q` of the bias. -/
theorem bias2_at (b : FVec Ideal S256 .f32) (q : Fin 256) :
    shapeCast S1x256 b shapeCasts_S256_S1x256 (ix2 (0 : Fin 1) q) = b (ix1 q) :=
  shapeCast_apply b shapeCasts_S256_S1x256 (ix2 (0 : Fin 1) q) (ix1 q) (by
    rw [Shape.rowMajor_val_one, Shape.rowMajor_val_two]; show q.val = 0 * 256 + q.val; omega)

end Cert.KernelIdeal.Operands

end
-- ==== Proof.ReferenceAtIndex.lean ====
/-
  One entry of the reference's result, over the extended reals.

  After its node features `h = (1 + eps) · x + agg` the reference computes `max (max (h · W₁ + b₁) 0 · W₂ + b₂) 0` with
  plain products and biases broadcast along the rows.  Read one stage at a time, entry `(p, q)` of the result is the
  64-unit perceptron of feature row `p` at output column `q`.
-/
import proofs.«421604_j42296837931757_3_alg».proof.Proof.Gen.ReferenceIdeal.Read
import proofs.«421604_j42296837931757_3_alg».proof.Proof.Perceptron

noncomputable section

namespace Cert.ReferenceIdeal.AtIndex

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000x128, .f32⟩ : BufTy).Contents (Elt Ideal)) (x3 : (⟨S_, .f32⟩ : BufTy).Contents (Elt Ideal))
  (x4 : (⟨S128x64, .f32⟩ : BufTy).Contents (Elt Ideal)) (x5 : (⟨S64, .f32⟩ : BufTy).Contents (Elt Ideal))
  (x6 : (⟨S64x256, .f32⟩ : BufTy).Contents (Elt Ideal)) (x7 : (⟨S256, .f32⟩ : BufTy).Contents (Elt Ideal))

/-- The reference's hidden activation at `(p, k)`: hidden unit `k` of its feature row `p`. -/
theorem hidden_at (p : Fin 50000) (k : Fin 64) :
    val_main_v24 (F := Ideal) x0 x1 x2 x3 x4 x5 (ix2 p k)
      = Perceptron.hidden (fun d : Fin 128 => val_main_v19 (F := Ideal) x0 x1 x2 x3 (ix2 p d))
          (fun (d : Fin 128) (k : Fin 64) => x4 (ix2 d k)) (fun k : Fin 64 => x5 (ix1 k)) k := by
  rw [val_main_v24_apply, val_main_v23_apply, val_main_v20_apply, val_main_v22_apply, val_main_v21_apply,
    val_main_call1_v0_apply, val_main_call1_cst_apply]
  have el : ∀ d : Fin 128, lidx_main_v20 (ix2 p k) d = ix2 p d := fun d => funext fun a => by
    match a with | ⟨0, _⟩ => rfl | ⟨1, _⟩ => rfl
  have er : ∀ d : Fin 128, ridx_main_v20 (ix2 p k) d = ix2 d k := fun d => funext fun a => by
    match a with | ⟨0, _⟩ => rfl | ⟨1, _⟩ => rfl
  have eb : idx_main_v21 (idx_main_v22 (ix2 p k)) = ix1 k := funext fun a => by
    match a with | ⟨0, _⟩ => rfl
  simp only [el, er, eb]
  show max (_ + _) (Ideal.ofBits .f32 0x00000000#32) = _
  rw [Ideal.ofBits_zero_f32]
  rfl

/-- ENTRY `(p, q)` OF THE REFERENCE'S RESULT: the 64-unit perceptron of its feature row `p`, at output column `q`. -/
theorem result_at (p : Fin 50000) (q : Fin 256) :
    val_main_v29 (F := Ideal) x0 x1 x2 x3 x4 x5 x6 x7 (ix2 p q)
      = Perceptron.out (fun d : Fin 128 => val_main_v19 (F := Ideal) x0 x1 x2 x3 (ix2 p d))
          (fun (d : Fin 128) (k : Fin 64) => x4 (ix2 d k)) (fun k : Fin 64 => x5 (ix1 k))
          (fun k : Fin 64 => x6 (ix2 k q)) (x7 (ix1 q)) := by
  rw [val_main_v29_apply, val_main_v28_apply, val_main_v25_apply, val_main_v27_apply, val_main_v26_apply,
    val_main_call2_v0_apply, val_main_call2_cst_apply]
  have el : ∀ k : Fin 64, lidx_main_v25 (ix2 p q) k = ix2 p k := fun k => funext fun a => by
    match a with | ⟨0, _⟩ => rfl | ⟨1, _⟩ => rfl
  have er : ∀ k : Fin 64, ridx_main_v25 (ix2 p q) k = ix2 k q := fun k => funext fun a => by
    match a with | ⟨0, _⟩ => rfl | ⟨1, _⟩ => rfl
  have eb : idx_main_v26 (idx_main_v27 (ix2 p q)) = ix1 q := funext fun a => by
    match a with | ⟨0, _⟩ => rfl
  simp only [el, er, eb, hidden_at]
  show max (_ + _) (Ideal.ofBits .f32 0x00000000#32) = _
  rw [Ideal.ofBits_zero_f32]
  rfl

end Cert.ReferenceIdeal.AtIndex

end
-- ==== Proof.LibScatterAddInto.lean ====
/-
  A float scatter-add INTO an initial array is that array plus the scatter-add into zeros.

  At the ideal instance `Host.scatterAdd d a idx upd` holds, at each index `i`, `a i` plus the sum of the updates whose
  result index is `i` (an update that lands outside the operand is dropped).  The initial array enters only through
  that first summand, so scattering into `a` is `a` plus scattering into any array `z` that is zero everywhere:
  `a i + S = a i + (0 + S)`.  It holds for every scatter dimension record, every index array and all extended-real
  values, the infinities included (only `0 + x = x` is used).  This is how `x.at[idx].add(u)` with a folded-in initial
  value meets `x + segment_sum(u, idx)`.
-/
import Idealize.ShloMosaic.PureOps.Ideal
import Idealize.ShloMosaic.PureOps.Contract

noncomputable section

namespace Idealize.ShloMosaic

/-- Scatter-adding into `a` is `a` plus scatter-adding the same updates at the same indices into an all-zero array. -/
theorem Host.scatterAdd_into {s si u : Shape} {w : Nat} {φ : FTy} (d : ScatterDims s si u) (a z : FVec Ideal s φ)
    (idx : IVec si w) (upd : FVec Ideal u φ) (hz : ∀ i, z i = 0) :
    Host.scatterAdd d a idx upd = addf a (Host.scatterAdd d z idx upd) := by
  funext i
  show Ideal.hostScatterAdd d a idx upd i = a i + Ideal.hostScatterAdd d z idx upd i
  unfold Ideal.hostScatterAdd
  rw [hz i, zero_add]

end Idealize.ShloMosaic

end
-- ==== Proof.Aggregate.lean ====
/-
  The node features of the two programs are one array when no target index is negative.

  The kernel scatter-adds the edge messages INTO `(1 + eps) · x`, at target indices it first wraps (`v < 0` becomes
  `v + 50000`); the reference scatter-adds the same messages into zeros at the raw targets and then adds
  `(1 + eps) · x`.  With every target non-negative the wrap is the identity, so both scatter the same updates at the
  same indices, and scattering into an initial array is that array plus scattering into zeros.  The messages
  themselves (gather of the wrapped sources, add, rectify) are the same term in both programs.
-/
import proofs.«421604_j42296837931757_3_alg».proof.Proof.KernelOperands
import proofs.«421604_j42296837931757_3_alg».proof.Proof.Gen.ReferenceIdeal.Read
import proofs.«421604_j42296837931757_3_alg».proof.Proof.LibScatterAddInto
import Idealize.ShloMosaic.Lib.Affine
import Idealize.ShloMosaic.Lib.ValueIdx
import Idealize.ShloMosaic.Lib.Pipeline.Value
import Idealize.ShloMosaic.PureOps.Ideal.Laws

noncomputable section

namespace Cert.KernelIdeal.Operands

open Cert.KernelIdeal Cert.KernelIdeal.Gen Idealize.ShloMosaic Idealize.ShloMosaic.ValueIdx

/-- Entry `q` of the target row is the edge list at `(1, q)`. -/
theorem dstRow_at (e : IVec S2x800000 32) (q : Fin 800000) : dstRow e (ix1 q) = e (ix2 (1 : Fin 2) q) := by
  unfold dstRow
  refine (shapeCast_apply _ shapeCasts_S1x800000_S800000 (ix1 q) (ix2 (0 : Fin 1) q) (by
    rw [Shape.rowMajor_val_two, Shape.rowMajor_val_one]; show 0 * 800000 + q.val = q.val; omega)).trans ?_
  exact extractStridedSlice_apply ![1, 0] e slices_S2x800000_S1x800000_1_0 (ix2 (0 : Fin 1) q) (ix2 (1 : Fin 2) q) (fun a => by
    match a with
    | ⟨0, _⟩ => rfl
    | ⟨1, _⟩ => show q.val = 0 + q.val; omega)

/-- Non-negative targets are left alone by the wrap. -/
theorem wrap_dstRow (e : IVec S2x800000 32) (h : ∀ q : Fin 800000, 0 ≤ (e (ix2 (1 : Fin 2) q)).toInt) :
    wrap (dstRow e) = dstRow e := by
  funext i
  obtain ⟨q, rfl⟩ : ∃ q : Fin 800000, i = ix1 q := ⟨i 0, eq_ix1 i⟩
  have hz : broadcastInDim S800000 ![] bcast_S_S800000 (constantI S_ 32 0#32) (ix1 q) = 0#32 :=
    broadcastInDim_apply _ bcast_S_S800000 _ (ix1 q) ix0 (fun a => a.elim0)
  have hc : IntOp.cmpi .slt (dstRow e (ix1 q)) 0#32 ≠ 1#1 := fun hc => by
    have h1 := IntOp.cmpi_slt.1 hc
    rw [dstRow_at] at h1
    have h0 := h q
    have hzero : (0#32 : BitVec 32).toInt = 0 := by decide
    omega
  show Scalar.select (IntOp.cmpi .slt (dstRow e (ix1 q)) (broadcastInDim S800000 ![] bcast_S_S800000 (constantI S_ 32 0#32) (ix1 q))) _
      (dstRow e (ix1 q)) = _
  rw [hz, eq_zero_of_ne_one hc, select_zero]

end Cert.KernelIdeal.Operands

namespace Cert.Aggregate

open Idealize.ShloMosaic Idealize.ShloMosaic.ValueIdx

/-- The reference's scatter starts from an array of zeros. -/
theorem zero_init (i : Cert.ReferenceIdeal.S50000x128.Idx) : Cert.ReferenceIdeal.Read.val_main_v13 (F := Ideal) i = 0 := by
  rw [Cert.ReferenceIdeal.Read.val_main_v13_apply, Cert.ReferenceIdeal.Read.val_main_cst_apply]
  exact Ideal.ofBits_zero_f32

/-- THE NODE FEATURES AGREE: with no negative target, the kernel's scatter into `(1 + eps) · x` is the reference's
    `(1 + eps) · x` plus its scatter into zeros. -/
theorem features_agree (x0 : FVec Ideal Cert.KernelIdeal.S50000x128 .f32) (x1 : IVec Cert.KernelIdeal.S2x800000 32)
    (x2 : FVec Ideal Cert.KernelIdeal.S800000x128 .f32) (x3 : FVec Ideal Cert.KernelIdeal.S_ .f32)
    (h : ∀ q : Fin 800000, 0 ≤ (x1 (ix2 (1 : Fin 2) q)).toInt) :
    Cert.KernelIdeal.Operands.nodeFeatures (F := Ideal) x0 x1 x2 x3
      = Cert.ReferenceIdeal.Read.val_main_v19 (F := Ideal) x0 x1 x2 x3 := by
  unfold Cert.KernelIdeal.Operands.nodeFeatures
  rw [Cert.KernelIdeal.Operands.wrap_dstRow x1 h]
  rw [Host.scatterAdd_into _ _ (Cert.ReferenceIdeal.Read.val_main_v13 (F := Ideal)) _ _ zero_init]
  rfl

end Cert.Aggregate

end
-- ==== Proof.TargetIndex.lean ====
/-
  What the precondition says of the edge list: every target node index is non-negative.

  The precondition is the conjunction of the finiteness tests with `all (edge_index[1] >= 0)`.  Its value being the
  one-bit word 1 makes the last conjunct 1, a reduction by `and` that is 1 met only 1s, and a signed `>=` that is 1
  says the word read as a signed integer is at least 0.  Row 1 of the edge list, sliced and reshaped to a vector, reads
  the edge list at `(1, q)`.
-/
import proofs.«421604_j42296837931757_3_alg».proof.Proof.Gen.Pre_finite_inputs
import Idealize.ShloMosaic.Lib.ReduceAll
import Idealize.ShloMosaic.Lib.Pipeline.Value
import Idealize.ShloMosaic.Lib.ValueIdx

noncomputable section

namespace Cert.TargetIndex

open Cert.Pre_finite_inputs Cert.Pre_finite_inputs.Gen Idealize.ShloMosaic Idealize.ShloMosaic.ValueIdx

variable {F : FTy → Type} [FloatOps F]

instance : Subsingleton S_.Idx := ⟨fun a b => funext fun d => d.elim0⟩

/-- Under the precondition every entry of row 1 of the edge list, read signed, is at least 0. -/
theorem targets_nonneg (a0 : FVec F S50000x128 .f32) (a1 : IVec S2x800000 32) (a2 : FVec F S800000x128 .f32)
    (a3 : FVec F S_ .f32) (a4 : FVec F S128x64 .f32) (a5 : FVec F S64 .f32) (a6 : FVec F S64x256 .f32) (a7 : FVec F S256 .f32)
    (h : fn (F := F) a0 a1 a2 a3 a4 a5 a6 a7 = fun _ => 1#1) (q : Fin 800000) :
    0 ≤ (a1 (ix2 (1 : Fin 2) q)).toInt := by
  have h0 : fn (F := F) a0 a1 a2 a3 a4 a5 a6 a7 ix0 = 1#1 := congrFun h ix0
  dsimp only [fn, fn_part1, fn_part2] at h0
  have h1 := (IntOp.andi_eq_one.1 h0).2
  have h2 := Host.reduce_andi_all _ _ _ _ _ h1 (ix1 q)
  have h3 := IntOp.cmpi_sge.1 h2
  have hz : broadcastInDim S800000 ![] bcast_S_S800000 (constantI S_ 32 0#32) (ix1 q) = 0#32 :=
    broadcastInDim_apply _ bcast_S_S800000 _ (ix1 q) ix0 (fun a => a.elim0)
  have hv : shapeCast S800000 (extractStridedSlice S1x800000 ![1, 0] a1 slices_S2x800000_S1x800000_1_0) shapeCasts_S1x800000_S800000 (ix1 q)
      = a1 (ix2 (1 : Fin 2) q) := by
    refine (shapeCast_apply _ shapeCasts_S1x800000_S800000 (ix1 q) (ix2 (0 : Fin 1) q) (by
      rw [Shape.rowMajor_val_two, Shape.rowMajor_val_one]; show 0 * 800000 + q.val = q.val; omega)).trans ?_
    exact extractStridedSlice_apply ![1, 0] a1 slices_S2x800000_S1x800000_1_0 (ix2 (0 : Fin 1) q) (ix2 (1 : Fin 2) q) (fun a => by
      match a with
      | ⟨0, _⟩ => rfl
      | ⟨1, _⟩ => show q.val = 0 + q.val; omega)
  rw [hz, hv] at h3
  simpa using h3

end Cert.TargetIndex

end
-- ==== Proof.Bridge.lean ====
/-
  The kernel's output array is the reference's result, under the precondition.

  The kernel's array is the 128-unit perceptron applied to every row of its node features, with padded weights; the
  reference's result is the 64-unit perceptron applied to every row of its node features.  The node features agree
  because no target index is negative (the precondition's last conjunct), and the padding law removes the 64 added
  hidden units: their second-layer weights are the padding zero.
-/
import proofs.«421604_j42296837931757_3_alg».proof.Proof.KernelArray
import proofs.«421604_j42296837931757_3_alg».proof.Proof.PaddedOperands
import proofs.«421604_j42296837931757_3_alg».proof.Proof.ReferenceAtIndex
import proofs.«421604_j42296837931757_3_alg».proof.Proof.Aggregate
import proofs.«421604_j42296837931757_3_alg».proof.Proof.TargetIndex

noncomputable section

namespace Cert.Bridge

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Under the precondition, the row-by-row perceptron of the arrays the kernel's region finds is the reference's result
    term of the same arguments. -/
theorem result_agree (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    Whole.rows (V m c main_v22) (V m c main_v23) (V m c main_v25) (V m c main_v26) (V m c main_v27)
      = Cert.ReferenceIdeal.Read.val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (congr (congr (congr (congr (congrArg Whole.rows (Operands.features_eq m c)) (Operands.weights1_eq m c))
    (Operands.bias1_eq m c)) (Operands.weights2_eq m c)) (Operands.bias2_eq m c)).trans ?_
  rw [Cert.Aggregate.features_agree _ _ _ _ (Cert.TargetIndex.targets_nonneg _ _ _ _ _ _ _ _ hpre)]
  funext i
  obtain ⟨p, q, rfl⟩ : ∃ (p : Fin 50000) (q : Fin 256), i = ix2 p q := ⟨i 0, i 1, eq_ix2 i⟩
  rw [Cert.ReferenceIdeal.AtIndex.result_at]
  unfold Whole.rows
  refine (congrArg (Perceptron.out _ _ _ _) (Operands.bias2_at (m ((c : Thread nD τ).loc main_arg7)) q)).trans ?_
  exact Perceptron.out_padded _ _ _ _ _ _ _ _ (fun d k => Operands.weights1_at _ d k) (fun k => Operands.bias1_at _ k)
    (fun k => Operands.weights2_at _ k q) (fun k hk => Operands.weights2_zero _ k hk q)

end Cert.Bridge

end
-- ==== Proof.lean ====
/-
  The certificate of a graph layer: edge messages `max (x[src] + edge_attr) 0` summed at their target nodes and added to
  `(1 + eps) · x`, followed by a two-layer perceptron with rectifiers, `max (max (h · W₁ + b₁) 0 · W₂ + b₂) 0`.

  The kernel and the reference differ in three ways, none of which changes the value over the extended reals.
  (1) The kernel folds `(1 + eps) · x` into the scatter's initial array where the reference scatters into zeros and adds
  afterwards: `a + S = a + (0 + S)`.  (2) The kernel wraps negative target indices before scattering and the reference
  does not; the precondition says no target index is negative, so the wrap is the identity.  (3) The kernel pads the
  hidden layer from 64 to 128 units with zero weights and runs the perceptron in a ten-point grid over blocks of 5000
  rows: each added summand is `hidden · 0 = 0`, a change of float format is the identity at the ideal instance, and
  the ten blocks tile the output.  No finiteness is used.

  The three frames are the generated ones (the reference's is its generated run with the result dropped); the ideal
  pass rewrote nothing, so `preserves` is trivial.
-/
import proofs.«421604_j42296837931757_3_alg».proof.Defs
import proofs.«421604_j42296837931757_3_alg».proof.Proof.Gen.Kernel
import proofs.«421604_j42296837931757_3_alg».proof.Proof.Gen.Kernel.Skeleton
import proofs.«421604_j42296837931757_3_alg».proof.Proof.Gen.Kernel.Launch
import proofs.«421604_j42296837931757_3_alg».proof.Proof.Gen.Kernel.Points
import proofs.«421604_j42296837931757_3_alg».proof.Proof.Gen.Kernel.Frame
import proofs.«421604_j42296837931757_3_alg».proof.Proof.Gen.KernelIdeal
import proofs.«421604_j42296837931757_3_alg».proof.Proof.Gen.KernelIdeal.Skeleton
import proofs.«421604_j42296837931757_3_alg».proof.Proof.Gen.KernelIdeal.Launch
import proofs.«421604_j42296837931757_3_alg».proof.Proof.Gen.KernelIdeal.Points
import proofs.«421604_j42296837931757_3_alg».proof.Proof.Gen.KernelIdeal.Frame
import proofs.«421604_j42296837931757_3_alg».proof.Proof.Gen.ReferenceIdeal
import proofs.«421604_j42296837931757_3_alg».proof.Proof.Gen.Pre_finite_inputs
import proofs.«421604_j42296837931757_3_alg».proof.Proof.Gen.KernelIdeal.Value
import proofs.«421604_j42296837931757_3_alg».proof.Proof.Gen.ReferenceIdeal.Run
import proofs.«421604_j42296837931757_3_alg».proof.Proof.Gen.ReferenceIdeal.Read
import proofs.«421604_j42296837931757_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass recorded no rewrite. -/
theorem preserves : Cert.preserves_Kernel_KernelIdeal := trivial

/-- Both idealized programs end with the output array at the perceptron applied to every row of the kernel's node
    features: the kernel by its run read block by block, the reference by its run and the bridge. -/
theorem algebraic : Cert.algebraic_KernelIdeal_ReferenceIdeal := by
  intro m ρ m' ρ' hpre hagree
  refine ⟨fun c => Cert.KernelIdeal.Whole.rows (Cert.KernelIdeal.Gen.V m c Cert.KernelIdeal.main_v22)
    (Cert.KernelIdeal.Gen.V m c Cert.KernelIdeal.main_v23) (Cert.KernelIdeal.Gen.V m c Cert.KernelIdeal.main_v25)
    (Cert.KernelIdeal.Gen.V m c Cert.KernelIdeal.main_v26) (Cert.KernelIdeal.Gen.V m c Cert.KernelIdeal.main_v27), ?_, ?_⟩
  · exact (θ_run Cert.KernelIdeal.defs _ _).mono
      (fun r h c => ⟨(h c).1.trans (Cert.KernelIdeal.Whole.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.result_agree m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
